-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_arg5 : FVec F S256 .f32) (main_arg6 : FVec F S256x256 .f32) (main_arg7 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg6
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S50000x512 .f32) (main_arg1 : IVec S2x800000 32) (main_arg2 : FVec F S512x256 .f32) (main_arg3 : FVec F S256 .f32) (main_arg4 : FVec F S256x256 .f32) (main_arg5 : FVec F S256 .f32) (main_arg6 : FVec F S256x256 .f32) (main_arg7 : FVec F S256 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg4
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg5 main_arg6 main_arg7 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x256 : Shape := ⟨2, ![50000, 256]⟩
abbrev S2000x512 : Shape := ⟨2, ![2000, 512]⟩
abbrev S2000x256 : Shape := ⟨2, ![2000, 256]⟩
abbrev S800000x256 : Shape := ⟨2, ![800000, 256]⟩
abbrev S1x256 : Shape := ⟨2, ![1, 256]⟩

abbrev nBuf : Space → Nat
  | .hbm => 99
  | .vmem => 16
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S_, .f32⟩
  | .hbm, ⟨13, _⟩ => ⟨S800000, .f32⟩
  | .hbm, ⟨14, _⟩ => ⟨S_, .f32⟩
  | .hbm, ⟨15, _⟩ => ⟨S50000, .f32⟩
  | .hbm, ⟨16, _⟩ => ⟨S800000x1, .i32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000, .f32⟩
  | .hbm, ⟨31, _⟩ => ⟨S_, .i32⟩
  | .hbm, ⟨32, _⟩ => ⟨S800000, .i32⟩
  | .hbm, ⟨33, _⟩ => ⟨S800000, .i1⟩
  | .hbm, ⟨34, _⟩ => ⟨S_, .i32⟩
  | .hbm, ⟨35, _⟩ => ⟨S800000, .i32⟩
  | .hbm, ⟨36, _⟩ => ⟨S800000, .i32⟩
  | .hbm, ⟨37, _⟩ => ⟨S800000, .i32⟩
  | .hbm, ⟨38, _⟩ => ⟨S800000x1, .i32⟩
  | .hbm, ⟨39, _⟩ => ⟨S800000, .f32⟩
  | .hbm, ⟨40, _⟩ => ⟨S800000, .f32⟩
  | .hbm, ⟨41, _⟩ => ⟨S800000x1, .f32⟩
  | .hbm, ⟨42, _⟩ => ⟨S50000, .f32⟩
  | .hbm, ⟨43, _⟩ => ⟨S50000x1, .f32⟩
  | .hbm, ⟨44, _⟩ => ⟨S50000x512, .bf16⟩
  | .hbm, ⟨45, _⟩ => ⟨S512x256, .bf16⟩
  | .hbm, ⟨46, _⟩ => ⟨S50000x256, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x256, .f32⟩
  | .hbm, ⟨56, _⟩ => ⟨S800000x256, .f32⟩
  | .hbm, ⟨57, _⟩ => ⟨S800000x256, .f32⟩
  | .hbm, ⟨58, _⟩ => ⟨S_, .f32⟩
  | .hbm, ⟨59, _⟩ => ⟨S50000x256, .f32⟩
  | .hbm, ⟨60, _⟩ => ⟨S800000x1, .i32⟩
  | .hbm, ⟨61, _⟩ => ⟨S50000x256, .f32⟩
  | .hbm, ⟨62, _⟩ => ⟨S50000x256, .f32⟩
  | .hbm, ⟨63, _⟩ => ⟨S50000x256, .f32⟩
  | .hbm, ⟨64, _⟩ => ⟨S50000x256, .f32⟩
  | .hbm, ⟨65, _⟩ => ⟨S1x256, .f32⟩
  | .hbm, ⟨66, _⟩ => ⟨S50000x256, .f32⟩
  | .hbm, ⟨67, _⟩ => ⟨S50000x256, .f32⟩
  | .hbm, ⟨68, _⟩ => ⟨S_, .f32⟩
  | .hbm, ⟨69, _⟩ => ⟨S50000x256, .f32⟩
  | .hbm, ⟨70, _⟩ => ⟨S50000x256, .f32⟩
  | .hbm, ⟨71, _⟩ => ⟨S50000x256, .bf16⟩
  | .hbm, ⟨72, _⟩ => ⟨S256x256, .bf16⟩
  | .hbm, ⟨73, _⟩ => ⟨S50000x256, .f32⟩
  | .hbm, ⟨74, _⟩ => ⟨S_, .i32⟩
  | .hbm, ⟨75, _⟩ => ⟨S800000, .i32⟩
  | .hbm, ⟨76, _⟩ => ⟨S800000, .i1⟩
  | .hbm, ⟨77, _⟩ => ⟨S_, .i32⟩
  | .hbm, ⟨78, _⟩ => ⟨S800000, .i32⟩
  | .hbm, ⟨79, _⟩ => ⟨S800000, .i32⟩
  | .hbm, ⟨80, _⟩ => ⟨S800000, .i32⟩
  | .hbm, ⟨81, _⟩ => ⟨S800000x1, .i32⟩
  | .hbm, ⟨82, _⟩ => ⟨S800000x256, .f32⟩
  | .hbm, ⟨83, _⟩ => ⟨S800000x256, .f32⟩
  | .hbm, ⟨84, _⟩ => ⟨S800000x256, .f32⟩
  | .hbm, ⟨85, _⟩ => ⟨S_, .f32⟩
  | .hbm, ⟨86, _⟩ => ⟨S50000x256, .f32⟩
  | .hbm, ⟨87, _⟩ => ⟨S800000x1, .i32⟩
  | .hbm, ⟨88, _⟩ => ⟨S50000x256, .f32⟩
  | .hbm, ⟨89, _⟩ => ⟨S50000x256, .f32⟩
  | .hbm, ⟨90, _⟩ => ⟨S50000x256, .f32⟩
  | .hbm, ⟨91, _⟩ => ⟨S50000x256, .f32⟩
  | .hbm, ⟨92, _⟩ => ⟨S1x256, .f32⟩
  | .hbm, ⟨93, _⟩ => ⟨S50000x256, .f32⟩
  | .hbm, ⟨94, _⟩ => ⟨S50000x256, .f32⟩
  | .hbm, ⟨95, _⟩ => ⟨S50000x256, .bf16⟩
  | .hbm, ⟨96, _⟩ => ⟨S256x256, .bf16⟩
  | .hbm, ⟨97, _⟩ => ⟨S1x256, .f32⟩
  | .hbm, ⟨98, _⟩ => ⟨S50000x256, .f32⟩
  | .local _ .vmem, ⟨0, _⟩ => ⟨S2000x512, .bf16⟩
  | .local _ .vmem, ⟨1, _⟩ => ⟨S2000x512, .bf16⟩
  | .local _ .vmem, ⟨2, _⟩ => ⟨S512x256, .bf16⟩
  | .local _ .vmem, ⟨3, _⟩ => ⟨S2000x256, .f32⟩
  | .local _ .vmem, ⟨4, _⟩ => ⟨S2000x256, .f32⟩
  | .local _ .vmem, ⟨5, _⟩ => ⟨S2000x256, .bf16⟩
  | .local _ .vmem, ⟨6, _⟩ => ⟨S2000x256, .bf16⟩
  | .local _ .vmem, ⟨7, _⟩ => ⟨S256x256, .bf16⟩
  | .local _ .vmem, ⟨8, _⟩ => ⟨S2000x256, .f32⟩
  | .local _ .vmem, ⟨9, _⟩ => ⟨S2000x256, .f32⟩
  | .local _ .vmem, ⟨10, _⟩ => ⟨S2000x256, .bf16⟩
  | .local _ .vmem, ⟨11, _⟩ => ⟨S2000x256, .bf16⟩
  | .local _ .vmem, ⟨12, _⟩ => ⟨S256x256, .bf16⟩
  | .local _ .vmem, ⟨13, _⟩ => ⟨S1x256, .f32⟩
  | .local _ .vmem, ⟨14, _⟩ => ⟨S2000x256, .f32⟩
  | .local _ .vmem, ⟨15, _⟩ => ⟨S2000x256, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_7 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_call0_cst : Ref sig .tc := ⟨.hbm, 68, rfl⟩
abbrev main_call0_v0 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_c_8 : Ref sig .tc := ⟨.hbm, 74, rfl⟩
abbrev main_v54 : Ref sig .tc := ⟨.hbm, 75, rfl⟩
abbrev main_v55 : Ref sig .tc := ⟨.hbm, 76, rfl⟩
abbrev main_c_9 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_10 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bitsLt_bf16_f32 : FTy.bits .bf16 < FTy.bits .f32
  inb_S2000x512_S2000x512_0_0 : ∀ a, (![0, 0] : Fin 2 → Nat) a + S2000x512.size a ≤ S2000x512.size a
  h_S2000x512 : 0 < S2000x512.numel
  shapeCasts_S2000x512_S2000x512 : S2000x512.ShapeCasts S2000x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S2000x256_S2000x256_0_0 : ∀ a, (![0, 0] : Fin 2 → Nat) a + S2000x256.size a ≤ S2000x256.size a
  h_S2000x256 : 0 < S2000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S2000x512_S512x256_S2000x256_1_0_0_1_n_n_wf : DotDims.WF S2000x512 S512x256 S2000x256 [1] [0] [0] [1] [] []
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .bf16 = 32 ∨ (Rect.block (s := S50000x512) S2000x512.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .bf16 = 32 ∨ (Rect.block (s := S512x256) S512x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .bf16 = 32 ∨ (Rect.block (s := S50000x256) S2000x256.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .bf16 = 32 ∨ (Rect.block (s := S256x256) S256x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S50000x256.size a
  hwx1_2 : ∀ i : grid1.Coords, EltTy.bits .f32 = 32 ∨ (Rect.block (s := S50000x256) S2000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .bf16 = 32 ∨ (Rect.block (s := S50000x256) S2000x256.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .bf16 = 32 ∨ (Rect.block (s := S256x256) S256x256.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v29) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v30) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v31) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v51) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v52) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S2000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v72) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v73) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v74) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v75) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x256 : Shape := ⟨2, ![256, 256]⟩
abbrev S1x800000 : Shape := ⟨2, ![1, 800000]⟩
abbrev S800000 : Shape := ⟨1, ![800000]⟩
abbrev S50000x256 : Shape := ⟨2, ![50000, 256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩

abbrev nBuf : Space → Nat
  | .hbm => 127
  | .vmem => 0
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000x256, .f32⟩
  | .hbm, ⟨13, _⟩ => ⟨S_, .f32⟩
  | .hbm, ⟨14, _⟩ => ⟨S800000, .f32⟩
  | .hbm, ⟨15, _⟩ => ⟨S_, .f32⟩
  | .hbm, ⟨16, _⟩ => ⟨S50000, .f32⟩
  | .hbm, ⟨17, _⟩ => ⟨S800000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .f32⟩
  | .hbm, ⟨22, _⟩ => ⟨S50000, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000, .f32⟩
  | .hbm, ⟨41, _⟩ => ⟨S800000, .f32⟩
  | .hbm, ⟨42, _⟩ => ⟨S800000x1, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x256, .f32⟩
  | .hbm, ⟨52, _⟩ => ⟨S800000x256, .f32⟩
  | .hbm, ⟨53, _⟩ => ⟨S800000x256, .f32⟩
  | .hbm, ⟨54, _⟩ => ⟨S_, .f32⟩
  | .hbm, ⟨55, _⟩ => ⟨S50000x256, .f32⟩
  | .hbm, ⟨56, _⟩ => ⟨S800000x1, .i32⟩
  | .hbm, ⟨57, _⟩ => ⟨S50000x256, .f32⟩
  | .hbm, ⟨58, _⟩ => ⟨S50000, .f32⟩
  | .hbm, ⟨59, _⟩ => ⟨S50000x1, .f32⟩
  | .hbm, ⟨60, _⟩ => ⟨S50000x256, .f32⟩
  | .hbm, ⟨61, _⟩ => ⟨S50000x256, .f32⟩
  | .hbm, ⟨62, _⟩ => ⟨S50000x256, .f32⟩
  | .hbm, ⟨63, _⟩ => ⟨S1x256, .f32⟩
  | .hbm, ⟨64, _⟩ => ⟨S50000x256, .f32⟩
  | .hbm, ⟨65, _⟩ => ⟨S50000x256, .f32⟩
  | .hbm, ⟨66, _⟩ => ⟨S_, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S_, .f32⟩
  | .hbm, ⟨71, _⟩ => ⟨S800000, .f32⟩
  | .hbm, ⟨72, _⟩ => ⟨S_, .f32⟩
  | .hbm, ⟨73, _⟩ => ⟨S50000, .f32⟩
  | .hbm, ⟨74, _⟩ => ⟨S800000x1, .i32⟩
  | .hbm, ⟨75, _⟩ => ⟨S50000, .f32⟩
  | .hbm, ⟨76, _⟩ => ⟨S_, .f32⟩
  | .hbm, ⟨77, _⟩ => ⟨S50000, .f32⟩
  | .hbm, ⟨78, _⟩ => ⟨S50000, .f32⟩
  | .hbm, ⟨79, _⟩ => ⟨S50000, .f32⟩
  | .hbm, ⟨80, _⟩ => ⟨S_, .i32⟩
  | .hbm, ⟨81, _⟩ => ⟨S800000, .i32⟩
  | .hbm, ⟨82, _⟩ => ⟨S800000, .i1⟩
  | .hbm, ⟨83, _⟩ => ⟨S_, .i32⟩
  | .hbm, ⟨84, _⟩ => ⟨S800000, .i32⟩
  | .hbm, ⟨85, _⟩ => ⟨S800000, .i32⟩
  | .hbm, ⟨86, _⟩ => ⟨S800000, .i32⟩
  | .hbm, ⟨87, _⟩ => ⟨S800000x1, .i32⟩
  | .hbm, ⟨88, _⟩ => ⟨S800000, .f32⟩
  | .hbm, ⟨89, _⟩ => ⟨S_, .i32⟩
  | .hbm, ⟨90, _⟩ => ⟨S800000, .i32⟩
  | .hbm, ⟨91, _⟩ => ⟨S800000, .i1⟩
  | .hbm, ⟨92, _⟩ => ⟨S_, .i32⟩
  | .hbm, ⟨93, _⟩ => ⟨S800000, .i32⟩
  | .hbm, ⟨94, _⟩ => ⟨S800000, .i32⟩
  | .hbm, ⟨95, _⟩ => ⟨S800000, .i32⟩
  | .hbm, ⟨96, _⟩ => ⟨S800000x1, .i32⟩
  | .hbm, ⟨97, _⟩ => ⟨S800000, .f32⟩
  | .hbm, ⟨98, _⟩ => ⟨S800000, .f32⟩
  | .hbm, ⟨99, _⟩ => ⟨S800000x1, .f32⟩
  | .hbm, ⟨100, _⟩ => ⟨S_, .i32⟩
  | .hbm, ⟨101, _⟩ => ⟨S800000, .i32⟩
  | .hbm, ⟨102, _⟩ => ⟨S800000, .i1⟩
  | .hbm, ⟨103, _⟩ => ⟨S_, .i32⟩
  | .hbm, ⟨104, _⟩ => ⟨S800000, .i32⟩
  | .hbm, ⟨105, _⟩ => ⟨S800000, .i32⟩
  | .hbm, ⟨106, _⟩ => ⟨S800000, .i32⟩
  | .hbm, ⟨107, _⟩ => ⟨S800000x1, .i32⟩
  | .hbm, ⟨108, _⟩ => ⟨S800000x256, .f32⟩
  | .hbm, ⟨109, _⟩ => ⟨S800000x256, .f32⟩
  | .hbm, ⟨110, _⟩ => ⟨S800000x256, .f32⟩
  | .hbm, ⟨111, _⟩ => ⟨S_, .f32⟩
  | .hbm, ⟨112, _⟩ => ⟨S50000x256, .f32⟩
  | .hbm, ⟨113, _⟩ => ⟨S800000x1, .i32⟩
  | .hbm, ⟨114, _⟩ => ⟨S50000x256, .f32⟩
  | .hbm, ⟨115, _⟩ => ⟨S50000, .f32⟩
  | .hbm, ⟨116, _⟩ => ⟨S50000x1, .f32⟩
  | .hbm, ⟨117, _⟩ => ⟨S50000x256, .f32⟩
  | .hbm, ⟨118, _⟩ => ⟨S50000x256, .f32⟩
  | .hbm, ⟨119, _⟩ => ⟨S50000x256, .f32⟩
  | .hbm, ⟨120, _⟩ => ⟨S1x256, .f32⟩
  | .hbm, ⟨121, _⟩ => ⟨S50000x256, .f32⟩
  | .hbm, ⟨122, _⟩ => ⟨S50000x256, .f32⟩
  | .hbm, ⟨123, _⟩ => ⟨S50000x256, .f32⟩
  | .hbm, ⟨124, _⟩ => ⟨S1x256, .f32⟩
  | .hbm, ⟨125, _⟩ => ⟨S50000x256, .f32⟩
  | .hbm, ⟨126, _⟩ => ⟨S50000x256, .f32⟩
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_call0_cst : Ref sig .tc := ⟨.hbm, 66, rfl⟩
abbrev main_call0_v0 : Ref sig .tc := ⟨.hbm, 67, rfl⟩
abbrev main_v48 : Ref sig .tc := ⟨.hbm, 68, rfl⟩
abbrev main_v49 : Ref sig .tc := ⟨.hbm, 69, rfl⟩
abbrev main_cst_8 : Ref sig .tc := ⟨.hbm, 70, rfl⟩
abbrev main_v50 : Ref sig .tc := ⟨.hbm, 71, rfl⟩
abbrev main_cst_9 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_11 : Ref sig .tc := ⟨.hbm, 80, rfl⟩
abbrev main_v57 : Ref sig .tc := ⟨.hbm, 81, rfl⟩
abbrev main_v58 : Ref sig .tc := ⟨.hbm, 82, rfl⟩
abbrev main_c_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_c_15 : Ref sig .tc := ⟨.hbm, 100, rfl⟩
abbrev main_v73 : Ref sig .tc := ⟨.hbm, 101, rfl⟩
abbrev main_v74 : Ref sig .tc := ⟨.hbm, 102, rfl⟩
abbrev main_c_16 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_17 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S50000x512_S512x256_S50000x256_1_0_0_1_n_n_wf : DotDims.WF S50000x512 S512x256 S50000x256 [1] [0] [0] [1] [] []
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.Region0.lean ====
/-
  Region 0 of the idealized kernel program: a row-blocked matrix product. The grid has 25 points; point `t` loads rows
  `2000 t … 2000 t + 1999` of the left operand (50000 × 512) and the whole weight (512 × 256), multiplies them into a zero
  accumulator and stores the 2000 × 256 result as row block `t` of the output. At the ideal instance a matrix product into
  zero is the plain sum over the contracted axis, so the output array ends as the product of the two operand arrays,
  whatever those arrays hold when the region is entered.
-/
import proofs.«174555_j47467978556197_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.SL.Sem
open Idealize.ShloMosaic.Pipeline (Dat Cfg Window)

/-- Entry (row of `j`, `k`) of the left block. -/
abbrev lrow (j : S2000x256.Idx) (k : Fin 512) : S2000x512.Idx := fun a => match a with
  | ⟨0, _⟩ => ⟨(j 0).val, (j 0).isLt⟩
  | ⟨1, _⟩ => ⟨k.val, k.isLt⟩
/-- Entry (`k`, column of `j`) of the weight. -/
abbrev rcol (j : S2000x256.Idx) (k : Fin 512) : S512x256.Idx := fun a => match a with
  | ⟨0, _⟩ => ⟨k.val, k.isLt⟩
  | ⟨1, _⟩ => ⟨(j 1).val, (j 1).isLt⟩

/-! The product's operand indices, axis by axis: the left operand is read at (row of the result, contracted index),
    the right at (contracted index, column of the result). -/
theorem dl0 (i : S2000x256.Idx) (q : dot_S2000x512_S512x256_S2000x256_1_0_0_1_n_n.contr.Idx) :
    (dot_S2000x512_S512x256_S2000x256_1_0_0_1_n_n.lhsIdx i q 0).val = (i 0).val := by
  unfold DotDims.lhsIdx
  rw [dif_neg (show ¬(0 : Fin S2000x512.rank) ∈ dot_S2000x512_S512x256_S2000x256_1_0_0_1_n_n.lhsBatch by decide), dif_pos (show (0 : Fin S2000x512.rank) ∈ dot_S2000x512_S512x256_S2000x256_1_0_0_1_n_n.lhsNonContracting by decide)]
  rfl
theorem dl1 (i : S2000x256.Idx) (q : dot_S2000x512_S512x256_S2000x256_1_0_0_1_n_n.contr.Idx) :
    (dot_S2000x512_S512x256_S2000x256_1_0_0_1_n_n.lhsIdx i q 1).val = (q ⟨0, by decide⟩).val :=
  dot_S2000x512_S512x256_S2000x256_1_0_0_1_n_n.lhsIdx_val_of_single rfl i q
theorem dr0 (i : S2000x256.Idx) (q : dot_S2000x512_S512x256_S2000x256_1_0_0_1_n_n.contr.Idx) :
    (dot_S2000x512_S512x256_S2000x256_1_0_0_1_n_n.rhsIdx i q 0).val = (q ⟨0, by decide⟩).val :=
  dot_S2000x512_S512x256_S2000x256_1_0_0_1_n_n.rhsIdx_val_of_single rfl i q
theorem dr1 (i : S2000x256.Idx) (q : dot_S2000x512_S512x256_S2000x256_1_0_0_1_n_n.contr.Idx) :
    (dot_S2000x512_S512x256_S2000x256_1_0_0_1_n_n.rhsIdx i q 1).val = (i 1).val := by
  unfold DotDims.rhsIdx
  rw [dif_neg (show ¬(1 : Fin S512x256.rank) ∈ dot_S2000x512_S512x256_S2000x256_1_0_0_1_n_n.rhsBatch by decide), dif_pos (show (1 : Fin S512x256.rank) ∈ dot_S2000x512_S512x256_S2000x256_1_0_0_1_n_n.rhsNonContracting by decide)]
  rfl

/-- The body's stored value at an index of the block: the row of the left block times the column of the weight
    (the body's shape casts are identities and its accumulator is zero). -/
theorem pay_apply (x0 : Vec Ideal S2000x512 .bf16) (x1 : Vec Ideal S512x256 .bf16) (j : S2000x256.Idx) :
    k0_pay1 (F := Ideal) x0 x1 j = ∑ k : Fin 512, x0 (lrow j k) * x1 (rcol j k) := by
  unfold k0_pay1
  rw [shapeCast_self, shapeCast_self]
  simp only [matmul]
  rw [Ideal.matmul_constant_zero_apply, ← Equiv.sum_comp (ValueIdx.contrEquiv1 dot_S2000x512_S512x256_S2000x256_1_0_0_1_n_n 512 rfl rfl).symm]
  refine Finset.sum_congr rfl fun k _ => ?_
  have hk := ValueIdx.contrEquiv1_symm_val dot_S2000x512_S512x256_S2000x256_1_0_0_1_n_n 512 rfl rfl k
  have el : dot_S2000x512_S512x256_S2000x256_1_0_0_1_n_n.lhsIdx j ((ValueIdx.contrEquiv1 dot_S2000x512_S512x256_S2000x256_1_0_0_1_n_n 512 rfl rfl).symm k) = lrow j k := funext fun a => Fin.ext (by
    match a with
    | ⟨0, _⟩ => exact dl0 _ _
    | ⟨1, _⟩ => exact (dl1 _ _).trans hk)
  have er : dot_S2000x512_S512x256_S2000x256_1_0_0_1_n_n.rhsIdx j ((ValueIdx.contrEquiv1 dot_S2000x512_S512x256_S2000x256_1_0_0_1_n_n 512 rfl rfl).symm k) = rcol j k := funext fun a => Fin.ext (by
    match a with
    | ⟨0, _⟩ => exact (dr0 _ _).trans hk
    | ⟨1, _⟩ => exact dr1 _ _)
  rw [el, er]

/-- The whole-array product: entry (r, n) is the sum over k of x (r, k) · w (k, n). -/
def prod (x : S50000x512.Idx → EReal) (w : S512x256.Idx → EReal) : S50000x256.Idx → EReal :=
  fun i => ∑ k : Fin 512, x (fun a => match a with | ⟨0, _⟩ => ⟨(i 0).val, (i 0).isLt⟩ | ⟨1, _⟩ => ⟨k.val, k.isLt⟩)
    * w (fun a => match a with | ⟨0, _⟩ => ⟨k.val, k.isLt⟩ | ⟨1, _⟩ => ⟨(i 1).val, (i 1).isLt⟩)

theorem hz : (![0, 0] : Fin 2 → Nat) = fun _ => 0 := funext fun a => by fin_cases a <;> rfl

/-- The printed index maps over the grid: the row blocks of the left operand and of the result move together,
    point `t` at row block `t`; the weight stays whole. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is row block `t` of the product of the two operand arrays: row `r` of the left block is
    row `2000 t + r` of the left array. -/
theorem flushed_eq (c : Dev nD) (t : Fin cfg0.N) :
    (dat0 (F := Ideal) V c).flushed 2 t = ((cfg0.win 2).blk t).view.read (Elt Ideal) (prod (V c main_v29) (V c main_v30)) := by
  show (cfg0.win 2).cut (grid0.coords t) ((dat0 V c).after 2 t) = _
  rw [after0_2]
  unfold out0_2
  rw [View.canon_unit_zero hz]
  simp only [View.ld_unit_zero (S := S2000x512) hz, View.ld_unit_zero (S := S512x256) hz]
  obtain ⟨e0, e1, e2, e3, e4, e5⟩ := idx_facts t
  funext j
  show k0_pay1 (iblk0 V c 0 t) (iblk0 V c 1 t) j = prod (V c main_v29) (V c main_v30) (((cfg0.win 2).blk t).view.emb j)
  refine (pay_apply (iblk0 V c 0 t) (iblk0 V c 1 t) j).trans ?_
  unfold prod
  refine Finset.sum_congr rfl fun k _ => ?_
  refine congrArg₂ (· * ·) ?_ ?_
  · show V c main_v29 (((cfg0.win 0).blk t).view.emb (lrow j k)) = _
    refine congrArg (V c main_v29) (funext fun a => Fin.ext ?_)
    match a with
    | ⟨0, _⟩ => show win0_0.index t (0 : Fin 2) * 2000 + 1 * (j 0).val = win0_2.index t (0 : Fin 2) * 2000 + 1 * (j 0).val; omega
    | ⟨1, _⟩ => show win0_0.index t (1 : Fin 2) * 512 + 1 * k.val = k.val; omega
  · show V c main_v30 (((cfg0.win 1).blk t).view.emb (rcol j k)) = _
    refine congrArg (V c main_v30) (funext fun a => Fin.ext ?_)
    match a with
    | ⟨0, _⟩ => show win0_1.index t (0 : Fin 2) * 512 + 1 * k.val = k.val; omega
    | ⟨1, _⟩ => show win0_1.index t (1 : Fin 2) * 256 + 1 * (j 1).val = win0_2.index t (1 : Fin 2) * 256 + 1 * (j 1).val; omega

/-- An index of the result array is in point `t`'s block iff each coordinate is in the block's range on its axis. -/
theorem mem_blk (t : Fin cfg0.N) (i : S50000x256.Idx) :
    i ∈ ((cfg0.win 2).blk t).view.set ↔ ∀ a : Fin 2, win0_2.index t a * S2000x256.size a ≤ (i a).val ∧ (i a).val < win0_2.index t a * S2000x256.size a + S2000x256.size a := by
  show i ∈ ((View.whole main_v31).slice (win0_2.rect t)).set ↔ _
  rw [View.set_slice_whole, Rect.mem_set_unit]
  exact Iff.rfl

/-- Every row block of the result is some point's. -/
theorem idx_onto : ∀ q : Fin 25, ∃ t : Fin cfg0.N, win0_2.index t = ![q.val, 0] :=
  (by decide +kernel : ∀ q : Fin 25, ∃ t : Fin grid0.N, win0_2.index t = ![q.val, 0])

/-- The 25 row blocks of 2000 rows tile the 50000 rows: row `r` is in block `r / 2000`. -/
theorem cover (i : S50000x256.Idx) : ∃ t : Fin cfg0.N, (cfg0.win 2).flush t = true ∧ i ∈ ((cfg0.win 2).blk t).view.set := by
  have hi0 : (i 0).val < 50000 := (i 0).isLt
  have hi1 : (i 1).val < 256 := (i 1).isLt
  obtain ⟨t, ht⟩ := idx_onto ⟨(i 0).val / 2000, by omega⟩
  have q0 : win0_2.index t (0 : Fin 2) = (i 0).val / 2000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 256 ≤ (i 1).val ∧ (i 1).val < win0_2.index t (1 : Fin 2) * 256 + 256; omega

/-- The region's result array after the run, whatever the region finds in its buffers: the product of the two
    operand arrays as it finds them. -/
theorem arr (c : Dev nD) : (dat0 (F := Ideal) V c).arrAt 2 cfg0.N = prod (V c main_v29) (V c main_v30) :=
  (dat0 (F := Ideal) V c).arrAt_eq_of_cover 2 (prod (V c main_v29) (V c main_v30)) (fun t _ => flushed_eq V c t) cover

end Cert.KernelIdeal.Region0

end
-- ==== Proof.Stage0.lean ====
/-
  The idealized kernel program's buffers up to the exit of its first matrix-product region, each named as a stage of
  the reference: the two index vectors sliced from the edge list, the symmetric normalisation
  (edge weights rsqrt(deg src) · rsqrt(deg dst), self weights rsqrt(deg)², deg the in-degree plus one), the first
  product's operands (the change of float format is the identity at the ideal instance) and, after the region, the first
  product itself, which is the reference's first `dot_general`: both are the sum over the contracted axis.
-/
import proofs.«174555_j47467978556197_1_alg».proof.Proof.Gen.KernelIdeal.Frame
import proofs.«174555_j47467978556197_1_alg».proof.Proof.Gen.ReferenceIdeal.Read
import proofs.«174555_j47467978556197_1_alg».proof.Proof.Region0
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

/-- A buffer that no operation of a stretch writes keeps its contents through the stretch: the writes of the stretch's
    operations are listed and the buffer is told apart from each. -/
macro "keeps_through " ops:ident : tactic => `(tactic|
  (refine StableHlo.after_of_forall_not_mem _ _ (List.forall_iff_forall_mem.mp (by
     simp only [$ops:ident, List.Forall, StableHlo.nullary_writes, StableHlo.unary_writes, StableHlo.binary_writes, StableHlo.ternary_writes, StableHlo.quaternary_writes, StableHlo.reshape_writes, StableHlo.binaryIndexed_writes, Finset.mem_singleton]
     repeat' apply And.intro
     all_goals exact StableHlo.devRef_ne_of_ne (by decide)))))

variable (m : (ℓ : Loc nD τ sig) → Buf (Elt Ideal) ℓ) (ρ : Dev nD → PrngReg)

/-- The launch contents of the eight argument arrays on core `c`. -/
abbrev x0 (c : Dev nD) := m ((c : Thread nD τ).loc main_arg0)
abbrev x1 (c : Dev nD) := m ((c : Thread nD τ).loc main_arg1)
abbrev x2 (c : Dev nD) := m ((c : Thread nD τ).loc main_arg2)
abbrev x3 (c : Dev nD) := m ((c : Thread nD τ).loc main_arg3)
abbrev x4 (c : Dev nD) := m ((c : Thread nD τ).loc main_arg4)
abbrev x5 (c : Dev nD) := m ((c : Thread nD τ).loc main_arg5)
abbrev x6 (c : Dev nD) := m ((c : Thread nD τ).loc main_arg6)
abbrev x7 (c : Dev nD) := m ((c : Thread nD τ).loc main_arg7)

/-! ## Entry of region 0: what the first stretch of host operations leaves -/

theorem srcW1 (c : Dev nD) : W1 m ρ c (Proc.devRef .tc main_v1) = Cert.ReferenceIdeal.Read.val_main_v1 (x1 m c) := by
  show StableHlo.after hostOps0 (W0 m ρ c) (Proc.devRef .tc main_v1) = _
  after_results
  unfold Cert.ReferenceIdeal.Read.val_main_v1 Cert.ReferenceIdeal.Read.val_main_v0
  rfl

theorem dstW1 (c : Dev nD) : W1 m ρ c (Proc.devRef .tc main_v3) = Cert.ReferenceIdeal.Read.val_main_v3 (x1 m c) := by
  show StableHlo.after hostOps0 (W0 m ρ c) (Proc.devRef .tc main_v3) = _
  after_results
  unfold Cert.ReferenceIdeal.Read.val_main_v3 Cert.ReferenceIdeal.Read.val_main_v2
  rfl

theorem lhsW1 (c : Dev nD) : W1 m ρ c (Proc.devRef .tc main_v29) = x0 m c := by
  show StableHlo.after hostOps0 (W0 m ρ c) (Proc.devRef .tc main_v29) = _
  after_results
  rfl

theorem wgtW1 (c : Dev nD) : W1 m ρ c (Proc.devRef .tc main_v30) = x2 m c := by
  show StableHlo.after hostOps0 (W0 m ρ c) (Proc.devRef .tc main_v30) = _
  after_results
  rfl

set_option maxHeartbeats 1000000 in
theorem selfNormW1 (c : Dev nD) : W1 m ρ c (Proc.devRef .tc main_v28) = Cert.ReferenceIdeal.Read.val_main_v41 (x1 m c) := by
  show StableHlo.after hostOps0 (W0 m ρ c) (Proc.devRef .tc main_v28) = _
  after_results_simp
  simp only [Cert.ReferenceIdeal.Read.val_main_v41, Cert.ReferenceIdeal.Read.val_main_v40, Cert.ReferenceIdeal.Read.val_main_cst, Cert.ReferenceIdeal.Read.val_main_v5, Cert.ReferenceIdeal.Read.val_main_cst_0, Cert.ReferenceIdeal.Read.val_main_v6, Cert.ReferenceIdeal.Read.val_main_v7, Cert.ReferenceIdeal.Read.val_main_v8, Cert.ReferenceIdeal.Read.val_main_cst_1, Cert.ReferenceIdeal.Read.val_main_v9, Cert.ReferenceIdeal.Read.val_main_v10, Cert.ReferenceIdeal.Read.val_main_v11, Cert.ReferenceIdeal.Read.val_main_v0, Cert.ReferenceIdeal.Read.val_main_v1, Cert.ReferenceIdeal.Read.val_main_v2, Cert.ReferenceIdeal.Read.val_main_v3]
  rfl

set_option maxHeartbeats 1000000 in
theorem edgeNormW1 (c : Dev nD) : W1 m ρ c (Proc.devRef .tc main_v26) = Cert.ReferenceIdeal.Read.val_main_v27 (x1 m c) := by
  show StableHlo.after hostOps0 (W0 m ρ c) (Proc.devRef .tc main_v26) = _
  after_results_simp
  simp only [Cert.ReferenceIdeal.Read.val_main_c, Cert.ReferenceIdeal.Read.val_main_v12, Cert.ReferenceIdeal.Read.val_main_v13, Cert.ReferenceIdeal.Read.val_main_c_2, Cert.ReferenceIdeal.Read.val_main_v14, Cert.ReferenceIdeal.Read.val_main_v15, Cert.ReferenceIdeal.Read.val_main_v16, Cert.ReferenceIdeal.Read.val_main_v17, Cert.ReferenceIdeal.Read.val_main_v18, Cert.ReferenceIdeal.Read.val_main_c_3, Cert.ReferenceIdeal.Read.val_main_v19, Cert.ReferenceIdeal.Read.val_main_v20, Cert.ReferenceIdeal.Read.val_main_c_4, Cert.ReferenceIdeal.Read.val_main_v21, Cert.ReferenceIdeal.Read.val_main_v22, Cert.ReferenceIdeal.Read.val_main_v23, Cert.ReferenceIdeal.Read.val_main_v24, Cert.ReferenceIdeal.Read.val_main_v25, Cert.ReferenceIdeal.Read.val_main_v26, Cert.ReferenceIdeal.Read.val_main_v27, Cert.ReferenceIdeal.Read.val_main_cst, Cert.ReferenceIdeal.Read.val_main_v5, Cert.ReferenceIdeal.Read.val_main_cst_0, Cert.ReferenceIdeal.Read.val_main_v6, Cert.ReferenceIdeal.Read.val_main_v7, Cert.ReferenceIdeal.Read.val_main_v8, Cert.ReferenceIdeal.Read.val_main_cst_1, Cert.ReferenceIdeal.Read.val_main_v9, Cert.ReferenceIdeal.Read.val_main_v10, Cert.ReferenceIdeal.Read.val_main_v11, Cert.ReferenceIdeal.Read.val_main_v0, Cert.ReferenceIdeal.Read.val_main_v1, Cert.ReferenceIdeal.Read.val_main_v2, Cert.ReferenceIdeal.Read.val_main_v3]
  rfl

/-! ## Exit of region 0 -/

/-- The first product is the reference's first `dot_general`: both are the sum over the contracted axis. -/
theorem prod0_eq (x : (⟨S50000x512, .f32⟩ : BufTy).Contents (Elt Ideal)) (w : (⟨S512x256, .f32⟩ : BufTy).Contents (Elt Ideal)) :
    Region0.prod x w = Cert.ReferenceIdeal.Read.val_main_v4 x w := by
  funext i
  rw [Cert.ReferenceIdeal.Read.val_main_v4_apply]
  rfl

theorem prodW2 (c : Dev nD) : W2 m ρ c (Proc.devRef .tc main_v31) = Cert.ReferenceIdeal.Read.val_main_v4 (x0 m c) (x2 m c) := by
  refine (W2_arr m ρ c 2).trans ?_
  rw [Region0.arr (V1 m ρ) c]
  show Region0.prod (W1 m ρ c (Proc.devRef .tc main_v29)) (W1 m ρ c (Proc.devRef .tc main_v30)) = _
  rw [lhsW1, wgtW1]
  exact prod0_eq _ _

theorem srcW2 (c : Dev nD) : W2 m ρ c (Proc.devRef .tc main_v1) = Cert.ReferenceIdeal.Read.val_main_v1 (x1 m c) :=
  (W2_of_ne m ρ c main_v1 (by decide)).trans (srcW1 m ρ c)
theorem dstW2 (c : Dev nD) : W2 m ρ c (Proc.devRef .tc main_v3) = Cert.ReferenceIdeal.Read.val_main_v3 (x1 m c) :=
  (W2_of_ne m ρ c main_v3 (by decide)).trans (dstW1 m ρ c)
theorem edgeNormW2 (c : Dev nD) : W2 m ρ c (Proc.devRef .tc main_v26) = Cert.ReferenceIdeal.Read.val_main_v27 (x1 m c) :=
  (W2_of_ne m ρ c main_v26 (by decide)).trans (edgeNormW1 m ρ c)
theorem selfNormW2 (c : Dev nD) : W2 m ρ c (Proc.devRef .tc main_v28) = Cert.ReferenceIdeal.Read.val_main_v41 (x1 m c) :=
  (W2_of_ne m ρ c main_v28 (by decide)).trans (selfNormW1 m ρ c)

theorem arg3W2 (c : Dev nD) : W2 m ρ c (Proc.devRef .tc main_arg3) = x3 m c :=
  calc W2 m ρ c (Proc.devRef .tc main_arg3)
    _ = W1 m ρ c (Proc.devRef .tc main_arg3) := W2_of_ne m ρ c main_arg3 (by decide)
    _ = W0 m ρ c (Proc.devRef .tc main_arg3) := by keeps_through hostOps0
    _ = x3 m c := rfl
theorem arg4W2 (c : Dev nD) : W2 m ρ c (Proc.devRef .tc main_arg4) = x4 m c :=
  calc W2 m ρ c (Proc.devRef .tc main_arg4)
    _ = W1 m ρ c (Proc.devRef .tc main_arg4) := W2_of_ne m ρ c main_arg4 (by decide)
    _ = W0 m ρ c (Proc.devRef .tc main_arg4) := by keeps_through hostOps0
    _ = x4 m c := rfl

end Cert.KernelIdeal.Chain

end
-- ==== Proof.Region1.lean ====
/-
  Region 1 of the idealized kernel program: the second row-blocked matrix product. Point `t` of 25 loads rows
  `2000 t … 2000 t + 1999` of the left operand (50000 × 256) and the whole weight (256 × 256), multiplies them into a
  zero accumulator and stores the result as row block `t` of the output; the output array ends as the product of the
  two operand arrays as the region finds them.
-/
import proofs.«174555_j47467978556197_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.SL.Sem
open Idealize.ShloMosaic.Pipeline (Dat Cfg Window)

/-- Entry (row of `j`, `k`) of the left block. -/
abbrev lrow (j : S2000x256.Idx) (k : Fin 256) : S2000x256.Idx := fun a => match a with
  | ⟨0, _⟩ => ⟨(j 0).val, (j 0).isLt⟩
  | ⟨1, _⟩ => ⟨k.val, k.isLt⟩
/-- Entry (`k`, column of `j`) of the weight. -/
abbrev rcol (j : S2000x256.Idx) (k : Fin 256) : S256x256.Idx := fun a => match a with
  | ⟨0, _⟩ => ⟨k.val, k.isLt⟩
  | ⟨1, _⟩ => ⟨(j 1).val, (j 1).isLt⟩

/-! The product's operand indices, axis by axis. -/
theorem dl0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem dl1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem dr0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem dr1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The body's stored value at an index of the block: the row of the left block times the column of the weight. -/
theorem pay_apply (x0 : Vec Ideal S2000x256 .bf16) (x1 : Vec Ideal S256x256 .bf16) (j : S2000x256.Idx) :
    k1_pay1 (F := Ideal) x0 x1 j = ∑ k : Fin 256, x0 (lrow j k) * x1 (rcol j k) := by
  unfold k1_pay1
  rw [shapeCast_self, shapeCast_self]
  simp only [matmul]
  rw [Ideal.matmul_constant_zero_apply, ← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx j ((ValueIdx.contrEquiv1 dot_S2000x256_S256x256_S2000x256_1_0_0_1_n_n 256 rfl rfl).symm k) = lrow j k := funext fun a => Fin.ext (by
    match a with
    | ⟨0, _⟩ => exact dl0 _ _
    | ⟨1, _⟩ => exact (dl1 _ _).trans hk)
  have er : dot_S2000x256_S256x256_S2000x256_1_0_0_1_n_n.rhsIdx j ((ValueIdx.contrEquiv1 dot_S2000x256_S256x256_S2000x256_1_0_0_1_n_n 256 rfl rfl).symm k) = rcol j k := funext fun a => Fin.ext (by
    match a with
    | ⟨0, _⟩ => exact (dr0 _ _).trans hk
    | ⟨1, _⟩ => exact dr1 _ _)
  rw [el, er]

/-- The whole-array product: entry (r, n) is the sum over k of x (r, k) · w (k, n). -/
def prod (x : S50000x256.Idx → EReal) (w : S256x256.Idx → EReal) : S50000x256.Idx → EReal :=
  fun i => ∑ k : Fin 256, x (fun a => match a with | ⟨0, _⟩ => ⟨(i 0).val, (i 0).isLt⟩ | ⟨1, _⟩ => ⟨k.val, k.isLt⟩)
    * w (fun a => match a with | ⟨0, _⟩ => ⟨k.val, k.isLt⟩ | ⟨1, _⟩ => ⟨(i 1).val, (i 1).isLt⟩)

theorem hz : (![0, 0] : Fin 2 → Nat) = fun _ => 0 := funext fun a => by fin_cases a <;> rfl

/-- The printed index maps over the grid: left operand and result at row block `t`, the weight whole. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

variable (V : (c : Dev nD) → (b : Ref sig .tc) → Buf (Elt Ideal) ((c : Thread nD τ).loc b))

/-- What point `t` writes back is row block `t` of the product of the two operand arrays. -/
theorem flushed_eq (c : Dev nD) (t : Fin cfg1.N) :
    (dat1 (F := Ideal) V c).flushed 2 t = ((cfg1.win 2).blk t).view.read (Elt Ideal) (prod (V c main_v51) (V c main_v52)) := by
  show (cfg1.win 2).cut (grid1.coords t) ((dat1 V c).after 2 t) = _
  rw [after1_2]
  unfold out1_2
  rw [View.canon_unit_zero hz]
  simp only [View.ld_unit_zero (S := S2000x256) hz, View.ld_unit_zero (S := S256x256) hz]
  obtain ⟨e0, e1, e2, e3, e4, e5⟩ := idx_facts t
  funext j
  show k1_pay1 (iblk1 V c 0 t) (iblk1 V c 1 t) j = prod (V c main_v51) (V c main_v52) (((cfg1.win 2).blk t).view.emb j)
  refine (pay_apply (iblk1 V c 0 t) (iblk1 V c 1 t) j).trans ?_
  unfold prod
  refine Finset.sum_congr rfl fun k _ => ?_
  refine congrArg₂ (· * ·) ?_ ?_
  · show V c main_v51 (((cfg1.win 0).blk t).view.emb (lrow j k)) = _
    refine congrArg (V c main_v51) (funext fun a => Fin.ext ?_)
    match a with
    | ⟨0, _⟩ => show win1_0.index t (0 : Fin 2) * 2000 + 1 * (j 0).val = win1_2.index t (0 : Fin 2) * 2000 + 1 * (j 0).val; omega
    | ⟨1, _⟩ => show win1_0.index t (1 : Fin 2) * 256 + 1 * k.val = k.val; omega
  · show V c main_v52 (((cfg1.win 1).blk t).view.emb (rcol j k)) = _
    refine congrArg (V c main_v52) (funext fun a => Fin.ext ?_)
    match a with
    | ⟨0, _⟩ => show win1_1.index t (0 : Fin 2) * 256 + 1 * k.val = k.val; omega
    | ⟨1, _⟩ => show win1_1.index t (1 : Fin 2) * 256 + 1 * (j 1).val = win1_2.index t (1 : Fin 2) * 256 + 1 * (j 1).val; omega

/-- An index of the result array is in point `t`'s block iff each coordinate is in the block's range on its axis. -/
theorem mem_blk (t : Fin cfg1.N) (i : S50000x256.Idx) :
    i ∈ ((cfg1.win 2).blk t).view.set ↔ ∀ a : Fin 2, win1_2.index t a * S2000x256.size a ≤ (i a).val ∧ (i a).val < win1_2.index t a * S2000x256.size a + S2000x256.size a := by
  show i ∈ ((View.whole main_v53).slice (win1_2.rect t)).set ↔ _
  rw [View.set_slice_whole, Rect.mem_set_unit]
  exact Iff.rfl

/-- Every row block of the result is some point's. -/
theorem idx_onto : ∀ q : Fin 25, ∃ t : Fin cfg1.N, win1_2.index t = ![q.val, 0] :=
  (by decide +kernel : ∀ q : Fin 25, ∃ t : Fin grid1.N, win1_2.index t = ![q.val, 0])

/-- The 25 row blocks of 2000 rows tile the 50000 rows. -/
theorem cover (i : S50000x256.Idx) : ∃ t : Fin cfg1.N, (cfg1.win 2).flush t = true ∧ i ∈ ((cfg1.win 2).blk t).view.set := by
  have hi0 : (i 0).val < 50000 := (i 0).isLt
  have hi1 : (i 1).val < 256 := (i 1).isLt
  obtain ⟨t, ht⟩ := idx_onto ⟨(i 0).val / 2000, by omega⟩
  have q0 : win1_2.index t (0 : Fin 2) = (i 0).val / 2000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 256 ≤ (i 1).val ∧ (i 1).val < win1_2.index t (1 : Fin 2) * 256 + 256; omega

/-- The region's result array after the run: the product of the two operand arrays as the region finds them. -/
theorem arr (c : Dev nD) : (dat1 (F := Ideal) V c).arrAt 2 cfg1.N = prod (V c main_v51) (V c main_v52) :=
  (dat1 (F := Ideal) V c).arrAt_eq_of_cover 2 (prod (V c main_v51) (V c main_v52)) (fun t _ => flushed_eq V c t) cover

end Cert.KernelIdeal.Region1

end
-- ==== Proof.Stage1.lean ====
/-
  The idealized kernel program's buffers from the exit of its first matrix-product region to the exit of the second,
  each named as a stage of the reference: the first graph convolution (messages h[src] scaled by the edge weights and
  summed into their destination rows, plus the self term, plus the bias), the rectifier, and the second product, which
  is the reference's second `dot_general`. The normalisation, the index vectors and the later arguments pass through
  the region and the stretches untouched.
-/
import proofs.«174555_j47467978556197_1_alg».proof.Proof.Stage0
import proofs.«174555_j47467978556197_1_alg».proof.Proof.Region1
import Idealize.ShloMosaic.Lib.StableHlo.Run
import Idealize.ShloMosaic.Lib.ValueIdx

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Entry of region 1: the first graph convolution and the rectifier, on the first product -/

set_option maxHeartbeats 1000000 in
/-- Aggregated messages plus the self term plus the bias, on the first product. The two sides are the same tree of
    operations, compared branch by branch. -/
theorem conv1W3 (c : Dev nD) : W3 m ρ c (Proc.devRef .tc main_v49) = Cert.ReferenceIdeal.Read.val_main_v47 (x0 m c) (x1 m c) (x2 m c) (x3 m c) := by
  show StableHlo.after hostOps1 (W2 m ρ c) (Proc.devRef .tc main_v49) = _
  after_results_simp
  simp only [prodW2 m ρ c, srcW2 m ρ c, dstW2 m ρ c, edgeNormW2 m ρ c, selfNormW2 m ρ c, arg3W2 m ρ c]
  simp only [Cert.ReferenceIdeal.Read.val_main_c_5, Cert.ReferenceIdeal.Read.val_main_v28, Cert.ReferenceIdeal.Read.val_main_v29, Cert.ReferenceIdeal.Read.val_main_c_6, Cert.ReferenceIdeal.Read.val_main_v30, Cert.ReferenceIdeal.Read.val_main_v31, Cert.ReferenceIdeal.Read.val_main_v32, Cert.ReferenceIdeal.Read.val_main_v33, Cert.ReferenceIdeal.Read.val_main_v34, Cert.ReferenceIdeal.Read.val_main_v35, Cert.ReferenceIdeal.Read.val_main_v36, Cert.ReferenceIdeal.Read.val_main_cst_7, Cert.ReferenceIdeal.Read.val_main_v37, Cert.ReferenceIdeal.Read.val_main_v38, Cert.ReferenceIdeal.Read.val_main_v39, Cert.ReferenceIdeal.Read.val_main_v42, Cert.ReferenceIdeal.Read.val_main_v43, Cert.ReferenceIdeal.Read.val_main_v44, Cert.ReferenceIdeal.Read.val_main_v45, Cert.ReferenceIdeal.Read.val_main_v46, Cert.ReferenceIdeal.Read.val_main_v47]
  refine congrArg₂ addf (congrArg₂ addf ?_ ?_) ?_
  · refine congrArg₂ (Host.scatterAdd scatter_S50000x256_S800000x1_S800000x256_1_0_0_1 _) ?_ ?_
    · rfl
    · refine congrArg₂ mulf ?_ ?_
      · rfl
      · exact congrArg (Host.gather gather_S50000x256_S800000x1_S800000x256_1_0_n_n_0_1_1256 _) rfl
  · rfl
  · rfl

/-- The rectifier's operand and result pass through the call's typed buffers unchanged. -/
theorem relu_casts (Y : (⟨Cert.ReferenceIdeal.S50000x256, .f32⟩ : BufTy).Contents (Elt Ideal)) (Z : (⟨S50000x256, .f32⟩ : BufTy).Contents (Elt Ideal)) :
    (TRef.of (sig := sig) (T := ⟨S50000x256, .f32⟩) main_v50).toBuf (Val := Elt Ideal) (maximumf (F := Ideal) (s := S50000x256) (φ := .f32) ((TRef.of (sig := sig) (T := ⟨S50000x256, .f32⟩) main_v49).ofBuf Y) Z)
    = maximumf (F := Ideal) (s := S50000x256) (φ := .f32) Y Z := rfl

/-- The rectifier's zero array, through the call's typed buffers, is the reference's zero array. -/
theorem zero_casts :
    (TRef.of (sig := sig) (T := ⟨S50000x256, .f32⟩) main_call0_v0).ofBuf (Val := Elt Ideal)
      ((TRef.of (sig := sig) (T := ⟨S50000x256, .f32⟩) main_call0_v0).toBuf
        (broadcastInDim S50000x256 ![] bcast_S_S50000x256
          ((TRef.of (sig := sig) (T := ⟨S_, .f32⟩) main_call0_cst).ofBuf
            ((TRef.of (sig := sig) (T := ⟨S_, .f32⟩) main_call0_cst).toBuf (constant (F := Ideal) S_ .f32 0x00000000#32)))))
    = broadcastInDim Cert.ReferenceIdeal.S50000x256 ![] Cert.ReferenceIdeal.Gen.bcast_S_S50000x256 (constant (F := Ideal) Cert.ReferenceIdeal.S_ .f32 0x00000000#32) := rfl

/-- The rectifier: the maximum with zero. -/
theorem reluW4 (c : Dev nD) : W4 m ρ c (Proc.devRef .tc main_v50) = Cert.ReferenceIdeal.Read.val_main_v48 (x0 m c) (x1 m c) (x2 m c) (x3 m c) := by
  show StableHlo.after hostOps1_1 (W3 m ρ c) (Proc.devRef .tc main_v50) = _
  have h := conv1W3 m ρ c
  generalize W3 m ρ c = V at h ⊢
  after_results_simp
  rw [h]
  unfold Cert.ReferenceIdeal.Read.val_main_v48 Cert.ReferenceIdeal.Read.val_main_call0_v0 Cert.ReferenceIdeal.Read.val_main_call0_cst
  generalize Cert.ReferenceIdeal.Read.val_main_v47 (x0 m c) (x1 m c) (x2 m c) (x3 m c) = Y
  refine (relu_casts Y _).trans ?_
  exact congrArg (maximumf (F := Ideal) (s := S50000x256) (φ := .f32) Y) zero_casts

/-- The left operand of the second product: the change of float format is the identity. -/
theorem hiddenW5 (c : Dev nD) : W5 m ρ c (Proc.devRef .tc main_v51) = Cert.ReferenceIdeal.Read.val_main_v48 (x0 m c) (x1 m c) (x2 m c) (x3 m c) := by
  show StableHlo.after hostOps1_2 (W4 m ρ c) (Proc.devRef .tc main_v51) = _
  have h := reluW4 m ρ c
  generalize W4 m ρ c = V at h ⊢
  after_results
  rw [h]
  generalize Cert.ReferenceIdeal.Read.val_main_v48 (x0 m c) (x1 m c) (x2 m c) (x3 m c) = Y
  funext i
  exact ValueIdx.truncf_apply Y _ i

theorem arg4W4 (c : Dev nD) : W4 m ρ c (Proc.devRef .tc main_arg4) = x4 m c :=
  calc W4 m ρ c (Proc.devRef .tc main_arg4)
    _ = W3 m ρ c (Proc.devRef .tc main_arg4) := by keeps_through hostOps1_1
    _ = W2 m ρ c (Proc.devRef .tc main_arg4) := by keeps_through hostOps1
    _ = x4 m c := arg4W2 m ρ c

/-- The second weight, its float format changed (the identity). -/
theorem wgtW5 (c : Dev nD) : W5 m ρ c (Proc.devRef .tc main_v52) = x4 m c := by
  show StableHlo.after hostOps1_2 (W4 m ρ c) (Proc.devRef .tc main_v52) = _
  have h := arg4W4 m ρ c
  generalize W4 m ρ c = V at h ⊢
  after_results
  rw [h]
  funext i
  exact ValueIdx.truncf_apply (x4 m c) _ i

/-! ## Exit of region 1 -/

/-- The second product is the reference's second `dot_general`: both are the sum over the contracted axis. -/
theorem prod1_eq (a : (⟨S50000x512, .f32⟩ : BufTy).Contents (Elt Ideal)) (b : (⟨S2x800000, .i32⟩ : BufTy).Contents (Elt Ideal))
    (d : (⟨S512x256, .f32⟩ : BufTy).Contents (Elt Ideal)) (e : (⟨S256, .f32⟩ : BufTy).Contents (Elt Ideal))
    (w : (⟨S256x256, .f32⟩ : BufTy).Contents (Elt Ideal)) :
    Region1.prod (Cert.ReferenceIdeal.Read.val_main_v48 a b d e) w = Cert.ReferenceIdeal.Read.val_main_v49 a b d e w := by
  funext i
  rw [Cert.ReferenceIdeal.Read.val_main_v49_apply]
  rfl

theorem prodW6 (c : Dev nD) : W6 m ρ c (Proc.devRef .tc main_v53) = Cert.ReferenceIdeal.Read.val_main_v49 (x0 m c) (x1 m c) (x2 m c) (x3 m c) (x4 m c) := by
  refine (W6_arr m ρ c 2).trans ?_
  rw [Region1.arr (V5 m ρ) c]
  show Region1.prod (W5 m ρ c (Proc.devRef .tc main_v51)) (W5 m ρ c (Proc.devRef .tc main_v52)) = _
  rw [hiddenW5, wgtW5]
  exact prod1_eq _ _ _ _ _

/-! What passes through the stretches and the region untouched. -/

theorem srcW6 (c : Dev nD) : W6 m ρ c (Proc.devRef .tc main_v1) = Cert.ReferenceIdeal.Read.val_main_v1 (x1 m c) :=
  calc W6 m ρ c (Proc.devRef .tc main_v1)
    _ = W5 m ρ c (Proc.devRef .tc main_v1) := W6_of_ne m ρ c main_v1 (by decide)
    _ = W4 m ρ c (Proc.devRef .tc main_v1) := by keeps_through hostOps1_2
    _ = W3 m ρ c (Proc.devRef .tc main_v1) := by keeps_through hostOps1_1
    _ = W2 m ρ c (Proc.devRef .tc main_v1) := by keeps_through hostOps1
    _ = Cert.ReferenceIdeal.Read.val_main_v1 (x1 m c) := srcW2 m ρ c

theorem dstW6 (c : Dev nD) : W6 m ρ c (Proc.devRef .tc main_v3) = Cert.ReferenceIdeal.Read.val_main_v3 (x1 m c) :=
  calc W6 m ρ c (Proc.devRef .tc main_v3)
    _ = W5 m ρ c (Proc.devRef .tc main_v3) := W6_of_ne m ρ c main_v3 (by decide)
    _ = W4 m ρ c (Proc.devRef .tc main_v3) := by keeps_through hostOps1_2
    _ = W3 m ρ c (Proc.devRef .tc main_v3) := by keeps_through hostOps1_1
    _ = W2 m ρ c (Proc.devRef .tc main_v3) := by keeps_through hostOps1
    _ = Cert.ReferenceIdeal.Read.val_main_v3 (x1 m c) := dstW2 m ρ c

theorem edgeNormW6 (c : Dev nD) : W6 m ρ c (Proc.devRef .tc main_v26) = Cert.ReferenceIdeal.Read.val_main_v27 (x1 m c) :=
  calc W6 m ρ c (Proc.devRef .tc main_v26)
    _ = W5 m ρ c (Proc.devRef .tc main_v26) := W6_of_ne m ρ c main_v26 (by decide)
    _ = W4 m ρ c (Proc.devRef .tc main_v26) := by keeps_through hostOps1_2
    _ = W3 m ρ c (Proc.devRef .tc main_v26) := by keeps_through hostOps1_1
    _ = W2 m ρ c (Proc.devRef .tc main_v26) := by keeps_through hostOps1
    _ = Cert.ReferenceIdeal.Read.val_main_v27 (x1 m c) := edgeNormW2 m ρ c

theorem selfNormW6 (c : Dev nD) : W6 m ρ c (Proc.devRef .tc main_v28) = Cert.ReferenceIdeal.Read.val_main_v41 (x1 m c) :=
  calc W6 m ρ c (Proc.devRef .tc main_v28)
    _ = W5 m ρ c (Proc.devRef .tc main_v28) := W6_of_ne m ρ c main_v28 (by decide)
    _ = W4 m ρ c (Proc.devRef .tc main_v28) := by keeps_through hostOps1_2
    _ = W3 m ρ c (Proc.devRef .tc main_v28) := by keeps_through hostOps1_1
    _ = W2 m ρ c (Proc.devRef .tc main_v28) := by keeps_through hostOps1
    _ = Cert.ReferenceIdeal.Read.val_main_v41 (x1 m c) := selfNormW2 m ρ c

theorem arg5W6 (c : Dev nD) : W6 m ρ c (Proc.devRef .tc main_arg5) = x5 m c :=
  calc W6 m ρ c (Proc.devRef .tc main_arg5)
    _ = W5 m ρ c (Proc.devRef .tc main_arg5) := W6_of_ne m ρ c main_arg5 (by decide)
    _ = W4 m ρ c (Proc.devRef .tc main_arg5) := by keeps_through hostOps1_2
    _ = W3 m ρ c (Proc.devRef .tc main_arg5) := by keeps_through hostOps1_1
    _ = W2 m ρ c (Proc.devRef .tc main_arg5) := by keeps_through hostOps1
    _ = W1 m ρ c (Proc.devRef .tc main_arg5) := W2_of_ne m ρ c main_arg5 (by decide)
    _ = W0 m ρ c (Proc.devRef .tc main_arg5) := by keeps_through hostOps0
    _ = x5 m c := rfl

theorem arg6W6 (c : Dev nD) : W6 m ρ c (Proc.devRef .tc main_arg6) = x6 m c :=
  calc W6 m ρ c (Proc.devRef .tc main_arg6)
    _ = W5 m ρ c (Proc.devRef .tc main_arg6) := W6_of_ne m ρ c main_arg6 (by decide)
    _ = W4 m ρ c (Proc.devRef .tc main_arg6) := by keeps_through hostOps1_2
    _ = W3 m ρ c (Proc.devRef .tc main_arg6) := by keeps_through hostOps1_1
    _ = W2 m ρ c (Proc.devRef .tc main_arg6) := by keeps_through hostOps1
    _ = W1 m ρ c (Proc.devRef .tc main_arg6) := W2_of_ne m ρ c main_arg6 (by decide)
    _ = W0 m ρ c (Proc.devRef .tc main_arg6) := by keeps_through hostOps0
    _ = x6 m c := rfl

theorem arg7W6 (c : Dev nD) : W6 m ρ c (Proc.devRef .tc main_arg7) = x7 m c :=
  calc W6 m ρ c (Proc.devRef .tc main_arg7)
    _ = W5 m ρ c (Proc.devRef .tc main_arg7) := W6_of_ne m ρ c main_arg7 (by decide)
    _ = W4 m ρ c (Proc.devRef .tc main_arg7) := by keeps_through hostOps1_2
    _ = W3 m ρ c (Proc.devRef .tc main_arg7) := by keeps_through hostOps1_1
    _ = W2 m ρ c (Proc.devRef .tc main_arg7) := by keeps_through hostOps1
    _ = W1 m ρ c (Proc.devRef .tc main_arg7) := W2_of_ne m ρ c main_arg7 (by decide)
    _ = W0 m ρ c (Proc.devRef .tc main_arg7) := by keeps_through hostOps0
    _ = x7 m c := rfl

end Cert.KernelIdeal.Chain

end
-- ==== Proof.Region2.lean ====
/-
  Region 2 of the idealized kernel program: the row-blocked matrix product with a bias row. Point `t` of 25 loads rows
  `2000 t … 2000 t + 1999` of the left operand (50000 × 256), the whole weight (256 × 256) and the whole bias row
  (1 × 256), multiplies into a zero accumulator, adds the bias row broadcast down the 2000 rows and stores the result as
  row block `t` of the output; the output array ends as the product of the two operand arrays plus the bias row on every
  row, as the region finds them.
-/
import proofs.«174555_j47467978556197_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.SL.Sem
open Idealize.ShloMosaic.Pipeline (Dat Cfg Window)

/-- Entry (row of `j`, `k`) of the left block. -/
abbrev lrow (j : S2000x256.Idx) (k : Fin 256) : S2000x256.Idx := fun a => match a with
  | ⟨0, _⟩ => ⟨(j 0).val, (j 0).isLt⟩
  | ⟨1, _⟩ => ⟨k.val, k.isLt⟩
/-- Entry (`k`, column of `j`) of the weight. -/
abbrev rcol (j : S2000x256.Idx) (k : Fin 256) : S256x256.Idx := fun a => match a with
  | ⟨0, _⟩ => ⟨k.val, k.isLt⟩
  | ⟨1, _⟩ => ⟨(j 1).val, (j 1).isLt⟩
/-- Entry (0, column of `j`) of the bias row. -/
abbrev bcol (j : S2000x256.Idx) : S1x256.Idx := fun a => match a with
  | ⟨0, _⟩ => ⟨0, Nat.one_pos⟩
  | ⟨1, _⟩ => ⟨(j 1).val, (j 1).isLt⟩

/-! The product's operand indices, axis by axis. -/
theorem dl0 (i : S2000x256.Idx) (q : dot_S2000x256_S256x256_S2000x256_1_0_0_1_n_n.contr.Idx) :
    (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem dl1 (i : S2000x256.Idx) (q : dot_S2000x256_S256x256_S2000x256_1_0_0_1_n_n.contr.Idx) :
    (dot_S2000x256_S256x256_S2000x256_1_0_0_1_n_n.lhsIdx i q 1).val = (q ⟨0, by decide⟩).val :=
  dot_S2000x256_S256x256_S2000x256_1_0_0_1_n_n.lhsIdx_val_of_single rfl i q
theorem dr0 (i : S2000x256.Idx) (q : dot_S2000x256_S256x256_S2000x256_1_0_0_1_n_n.contr.Idx) :
    (dot_S2000x256_S256x256_S2000x256_1_0_0_1_n_n.rhsIdx i q 0).val = (q ⟨0, by decide⟩).val :=
  dot_S2000x256_S256x256_S2000x256_1_0_0_1_n_n.rhsIdx_val_of_single rfl i q
theorem dr1 (i : S2000x256.Idx) (q : dot_S2000x256_S256x256_S2000x256_1_0_0_1_n_n.contr.Idx) :
    (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The body's stored value at an index of the block: the row of the left block times the column of the weight, plus
    the bias row's entry in that column (the bias row is broadcast along the rows). -/
theorem pay_apply (x0 : Vec Ideal S2000x256 .bf16) (x1 : Vec Ideal S256x256 .bf16) (x2 : Vec Ideal S1x256 .f32) (j : S2000x256.Idx) :
    k2_pay1 (F := Ideal) x0 x1 x2 j = (∑ k : Fin 256, x0 (lrow j k) * x1 (rcol j k)) + x2 (bcol j) := by
  unfold k2_pay1
  rw [shapeCast_self, shapeCast_self, shapeCast_self, ValueIdx.addf_apply]
  refine congrArg₂ (· + ·) ?_ ?_
  · simp only [matmul]
    rw [Ideal.matmul_constant_zero_apply, ← Equiv.sum_comp (ValueIdx.contrEquiv1 dot_S2000x256_S256x256_S2000x256_1_0_0_1_n_n 256 rfl rfl).symm]
    refine Finset.sum_congr rfl fun k _ => ?_
    have hk := ValueIdx.contrEquiv1_symm_val dot_S2000x256_S256x256_S2000x256_1_0_0_1_n_n 256 rfl rfl k
    have el : dot_S2000x256_S256x256_S2000x256_1_0_0_1_n_n.lhsIdx j ((ValueIdx.contrEquiv1 dot_S2000x256_S256x256_S2000x256_1_0_0_1_n_n 256 rfl rfl).symm k) = lrow j k := funext fun a => Fin.ext (by
      match a with
      | ⟨0, _⟩ => exact dl0 _ _
      | ⟨1, _⟩ => exact (dl1 _ _).trans hk)
    have er : dot_S2000x256_S256x256_S2000x256_1_0_0_1_n_n.rhsIdx j ((ValueIdx.contrEquiv1 dot_S2000x256_S256x256_S2000x256_1_0_0_1_n_n 256 rfl rfl).symm k) = rcol j k := funext fun a => Fin.ext (by
      match a with
      | ⟨0, _⟩ => exact (dr0 _ _).trans hk
      | ⟨1, _⟩ => exact dr1 _ _)
    rw [el, er]
  · refine broadcastTo_apply x2 _ j (bcol j) fun a => ?_
    match a with
    | ⟨0, _⟩ => rfl
    | ⟨1, _⟩ => rfl

/-- The whole-array result: entry (r, n) is the sum over k of x (r, k) · w (k, n), plus b (0, n). -/
def prodBias (x : S50000x256.Idx → EReal) (w : S256x256.Idx → EReal) (b : S1x256.Idx → EReal) : S50000x256.Idx → EReal :=
  fun i => (∑ k : Fin 256, x (fun a => match a with | ⟨0, _⟩ => ⟨(i 0).val, (i 0).isLt⟩ | ⟨1, _⟩ => ⟨k.val, k.isLt⟩)
    * w (fun a => match a with | ⟨0, _⟩ => ⟨k.val, k.isLt⟩ | ⟨1, _⟩ => ⟨(i 1).val, (i 1).isLt⟩))
    + b (fun a => match a with | ⟨0, _⟩ => ⟨0, Nat.one_pos⟩ | ⟨1, _⟩ => ⟨(i 1).val, (i 1).isLt⟩)

theorem hz : (![0, 0] : Fin 2 → Nat) = fun _ => 0 := funext fun a => by fin_cases a <;> rfl

/-- The printed index maps over the grid: left operand and result at row block `t`, the weight and the bias row whole. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

variable (V : (c : Dev nD) → (b : Ref sig .tc) → Buf (Elt Ideal) ((c : Thread nD τ).loc b))

/-- What point `t` writes back is row block `t` of the product plus bias of the three operand arrays. -/
theorem flushed_eq (c : Dev nD) (t : Fin cfg2.N) :
    (dat2 (F := Ideal) V c).flushed 3 t = ((cfg2.win 3).blk t).view.read (Elt Ideal) (prodBias (V c main_v72) (V c main_v73) (V c main_v74)) := by
  show (cfg2.win 3).cut (grid2.coords t) ((dat2 V c).after 3 t) = _
  rw [after2_3]
  unfold out2_3
  rw [View.canon_unit_zero hz]
  simp only [View.ld_unit_zero (S := S2000x256) hz, View.ld_unit_zero (S := S256x256) hz, View.ld_unit_zero (S := S1x256) hz]
  obtain ⟨e0, e1, e2, e3, e4, e5, e6, e7⟩ := idx_facts t
  funext j
  show k2_pay1 (iblk2 V c 0 t) (iblk2 V c 1 t) (iblk2 V c 2 t) j = prodBias (V c main_v72) (V c main_v73) (V c main_v74) (((cfg2.win 3).blk t).view.emb j)
  refine (pay_apply (iblk2 V c 0 t) (iblk2 V c 1 t) (iblk2 V c 2 t) j).trans ?_
  unfold prodBias
  refine congrArg₂ (· + ·) (Finset.sum_congr rfl fun k _ => congrArg₂ (· * ·) ?_ ?_) ?_
  · show V c main_v72 (((cfg2.win 0).blk t).view.emb (lrow j k)) = _
    refine congrArg (V c main_v72) (funext fun a => Fin.ext ?_)
    match a with
    | ⟨0, _⟩ => show win2_0.index t (0 : Fin 2) * 2000 + 1 * (j 0).val = win2_3.index t (0 : Fin 2) * 2000 + 1 * (j 0).val; omega
    | ⟨1, _⟩ => show win2_0.index t (1 : Fin 2) * 256 + 1 * k.val = k.val; omega
  · show V c main_v73 (((cfg2.win 1).blk t).view.emb (rcol j k)) = _
    refine congrArg (V c main_v73) (funext fun a => Fin.ext ?_)
    match a with
    | ⟨0, _⟩ => show win2_1.index t (0 : Fin 2) * 256 + 1 * k.val = k.val; omega
    | ⟨1, _⟩ => show win2_1.index t (1 : Fin 2) * 256 + 1 * (j 1).val = win2_3.index t (1 : Fin 2) * 256 + 1 * (j 1).val; omega
  · show V c main_v74 (((cfg2.win 2).blk t).view.emb (bcol j)) = _
    refine congrArg (V c main_v74) (funext fun a => Fin.ext ?_)
    match a with
    | ⟨0, _⟩ => show win2_2.index t (0 : Fin 2) * 1 + 1 * 0 = 0; omega
    | ⟨1, _⟩ => show win2_2.index t (1 : Fin 2) * 256 + 1 * (j 1).val = win2_3.index t (1 : Fin 2) * 256 + 1 * (j 1).val; omega

/-- An index of the result array is in point `t`'s block iff each coordinate is in the block's range on its axis. -/
theorem mem_blk (t : Fin cfg2.N) (i : S50000x256.Idx) :
    i ∈ ((cfg2.win 3).blk t).view.set ↔ ∀ a : Fin 2, win2_3.index t a * S2000x256.size a ≤ (i a).val ∧ (i a).val < win2_3.index t a * S2000x256.size a + S2000x256.size a := by
  show i ∈ ((View.whole main_v75).slice (win2_3.rect t)).set ↔ _
  rw [View.set_slice_whole, Rect.mem_set_unit]
  exact Iff.rfl

/-- Every row block of the result is some point's. -/
theorem idx_onto : ∀ q : Fin 25, ∃ t : Fin cfg2.N, win2_3.index t = ![q.val, 0] :=
  (by decide +kernel : ∀ q : Fin 25, ∃ t : Fin grid2.N, win2_3.index t = ![q.val, 0])

/-- The 25 row blocks of 2000 rows tile the 50000 rows. -/
theorem cover (i : S50000x256.Idx) : ∃ t : Fin cfg2.N, (cfg2.win 3).flush t = true ∧ i ∈ ((cfg2.win 3).blk t).view.set := by
  have hi0 : (i 0).val < 50000 := (i 0).isLt
  have hi1 : (i 1).val < 256 := (i 1).isLt
  obtain ⟨t, ht⟩ := idx_onto ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 256 ≤ (i 1).val ∧ (i 1).val < win2_3.index t (1 : Fin 2) * 256 + 256; omega

/-- The region's result array after the run: the product plus bias of the three operand arrays as the region finds them. -/
theorem arr (c : Dev nD) : (dat2 (F := Ideal) V c).arrAt 3 cfg2.N = prodBias (V c main_v72) (V c main_v73) (V c main_v74) :=
  (dat2 (F := Ideal) V c).arrAt_eq_of_cover 3 (prodBias (V c main_v72) (V c main_v73) (V c main_v74)) (fun t _ => flushed_eq V c t) cover

end Cert.KernelIdeal.Region2

end
-- ==== Proof.Stage2.lean ====
/-
  The idealized kernel program's buffers from the exit of its second matrix-product region to its result, each named as
  a stage of the reference: the second graph convolution (the reference computes the normalisation a second time from
  the same edge list; the kernel program reuses the first), the third product's operands and, after the last region, the
  third product plus the bias row, which is the reference's result: its `dot_general` is the sum over the contracted
  axis and its bias, broadcast from [256] to [1, 256] to [50000, 256], reads the same entry as the kernel's bias row
  reshaped from [256] to [1, 256].
-/
import proofs.«174555_j47467978556197_1_alg».proof.Proof.Stage1
import proofs.«174555_j47467978556197_1_alg».proof.Proof.Region2
import Idealize.ShloMosaic.Lib.StableHlo.Run
import Idealize.ShloMosaic.Lib.Pipeline.Value
import Idealize.ShloMosaic.Lib.ValueIdx

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The normalisation computed a second time is the first -/

theorem edgeNorm_again (x : (⟨S2x800000, .i32⟩ : BufTy).Contents (Elt Ideal)) :
    Cert.ReferenceIdeal.Read.val_main_v72 (F := Ideal) x = Cert.ReferenceIdeal.Read.val_main_v27 x := by
  simp only [Cert.ReferenceIdeal.Read.val_main_c_11, Cert.ReferenceIdeal.Read.val_main_v57, Cert.ReferenceIdeal.Read.val_main_v58, Cert.ReferenceIdeal.Read.val_main_c_12, Cert.ReferenceIdeal.Read.val_main_v59, Cert.ReferenceIdeal.Read.val_main_v60, Cert.ReferenceIdeal.Read.val_main_v61, Cert.ReferenceIdeal.Read.val_main_v62, Cert.ReferenceIdeal.Read.val_main_v63, Cert.ReferenceIdeal.Read.val_main_c_13, Cert.ReferenceIdeal.Read.val_main_v64, Cert.ReferenceIdeal.Read.val_main_v65, Cert.ReferenceIdeal.Read.val_main_c_14, Cert.ReferenceIdeal.Read.val_main_v66, Cert.ReferenceIdeal.Read.val_main_v67, Cert.ReferenceIdeal.Read.val_main_v68, Cert.ReferenceIdeal.Read.val_main_v69, Cert.ReferenceIdeal.Read.val_main_v70, Cert.ReferenceIdeal.Read.val_main_v71, Cert.ReferenceIdeal.Read.val_main_v72, Cert.ReferenceIdeal.Read.val_main_cst_8, Cert.ReferenceIdeal.Read.val_main_v50, Cert.ReferenceIdeal.Read.val_main_cst_9, Cert.ReferenceIdeal.Read.val_main_v51, Cert.ReferenceIdeal.Read.val_main_v52, Cert.ReferenceIdeal.Read.val_main_v53, Cert.ReferenceIdeal.Read.val_main_cst_10, Cert.ReferenceIdeal.Read.val_main_v54, Cert.ReferenceIdeal.Read.val_main_v55, Cert.ReferenceIdeal.Read.val_main_v56, Cert.ReferenceIdeal.Read.val_main_c, Cert.ReferenceIdeal.Read.val_main_v12, Cert.ReferenceIdeal.Read.val_main_v13, Cert.ReferenceIdeal.Read.val_main_c_2, Cert.ReferenceIdeal.Read.val_main_v14, Cert.ReferenceIdeal.Read.val_main_v15, Cert.ReferenceIdeal.Read.val_main_v16, Cert.ReferenceIdeal.Read.val_main_v17, Cert.ReferenceIdeal.Read.val_main_v18, Cert.ReferenceIdeal.Read.val_main_c_3, Cert.ReferenceIdeal.Read.val_main_v19, Cert.ReferenceIdeal.Read.val_main_v20, Cert.ReferenceIdeal.Read.val_main_c_4, Cert.ReferenceIdeal.Read.val_main_v21, Cert.ReferenceIdeal.Read.val_main_v22, Cert.ReferenceIdeal.Read.val_main_v23, Cert.ReferenceIdeal.Read.val_main_v24, Cert.ReferenceIdeal.Read.val_main_v25, Cert.ReferenceIdeal.Read.val_main_v26, Cert.ReferenceIdeal.Read.val_main_v27, Cert.ReferenceIdeal.Read.val_main_cst, Cert.ReferenceIdeal.Read.val_main_v5, Cert.ReferenceIdeal.Read.val_main_cst_0, Cert.ReferenceIdeal.Read.val_main_v6, Cert.ReferenceIdeal.Read.val_main_v7, Cert.ReferenceIdeal.Read.val_main_v8, Cert.ReferenceIdeal.Read.val_main_cst_1, Cert.ReferenceIdeal.Read.val_main_v9, Cert.ReferenceIdeal.Read.val_main_v10, Cert.ReferenceIdeal.Read.val_main_v11, Cert.ReferenceIdeal.Read.val_main_v0, Cert.ReferenceIdeal.Read.val_main_v1, Cert.ReferenceIdeal.Read.val_main_v2, Cert.ReferenceIdeal.Read.val_main_v3]

theorem selfNorm_again (x : (⟨S2x800000, .i32⟩ : BufTy).Contents (Elt Ideal)) :
    Cert.ReferenceIdeal.Read.val_main_v86 (F := Ideal) x = Cert.ReferenceIdeal.Read.val_main_v41 x := by
  simp only [Cert.ReferenceIdeal.Read.val_main_v86, Cert.ReferenceIdeal.Read.val_main_v85, Cert.ReferenceIdeal.Read.val_main_v41, Cert.ReferenceIdeal.Read.val_main_v40, Cert.ReferenceIdeal.Read.val_main_cst_8, Cert.ReferenceIdeal.Read.val_main_v50, Cert.ReferenceIdeal.Read.val_main_cst_9, Cert.ReferenceIdeal.Read.val_main_v51, Cert.ReferenceIdeal.Read.val_main_v52, Cert.ReferenceIdeal.Read.val_main_v53, Cert.ReferenceIdeal.Read.val_main_cst_10, Cert.ReferenceIdeal.Read.val_main_v54, Cert.ReferenceIdeal.Read.val_main_v55, Cert.ReferenceIdeal.Read.val_main_v56, Cert.ReferenceIdeal.Read.val_main_cst, Cert.ReferenceIdeal.Read.val_main_v5, Cert.ReferenceIdeal.Read.val_main_cst_0, Cert.ReferenceIdeal.Read.val_main_v6, Cert.ReferenceIdeal.Read.val_main_v7, Cert.ReferenceIdeal.Read.val_main_v8, Cert.ReferenceIdeal.Read.val_main_cst_1, Cert.ReferenceIdeal.Read.val_main_v9, Cert.ReferenceIdeal.Read.val_main_v10, Cert.ReferenceIdeal.Read.val_main_v11, Cert.ReferenceIdeal.Read.val_main_v0, Cert.ReferenceIdeal.Read.val_main_v1, Cert.ReferenceIdeal.Read.val_main_v2, Cert.ReferenceIdeal.Read.val_main_v3]

/-! ## Entry of region 2: the second graph convolution, on the second product -/

set_option maxHeartbeats 1000000 in
/-- Aggregated messages plus the self term plus the bias, on the second product. The two sides are the same tree of
    operations, compared branch by branch. -/
theorem conv2W7 (c : Dev nD) : W7 m ρ c (Proc.devRef .tc main_v71) = Cert.ReferenceIdeal.Read.val_main_v92 (x0 m c) (x1 m c) (x2 m c) (x3 m c) (x4 m c) (x5 m c) := by
  show StableHlo.after hostOps2 (W6 m ρ c) (Proc.devRef .tc main_v71) = _
  after_results_simp
  simp only [prodW6 m ρ c, srcW6 m ρ c, dstW6 m ρ c, edgeNormW6 m ρ c, selfNormW6 m ρ c, arg5W6 m ρ c]
  simp only [Cert.ReferenceIdeal.Read.val_main_c_15, Cert.ReferenceIdeal.Read.val_main_v73, Cert.ReferenceIdeal.Read.val_main_v74, Cert.ReferenceIdeal.Read.val_main_c_16, Cert.ReferenceIdeal.Read.val_main_v75, Cert.ReferenceIdeal.Read.val_main_v76, Cert.ReferenceIdeal.Read.val_main_v77, Cert.ReferenceIdeal.Read.val_main_v78, Cert.ReferenceIdeal.Read.val_main_v79, Cert.ReferenceIdeal.Read.val_main_v80, Cert.ReferenceIdeal.Read.val_main_v81, Cert.ReferenceIdeal.Read.val_main_cst_17, Cert.ReferenceIdeal.Read.val_main_v82, Cert.ReferenceIdeal.Read.val_main_v83, Cert.ReferenceIdeal.Read.val_main_v84, Cert.ReferenceIdeal.Read.val_main_v87, Cert.ReferenceIdeal.Read.val_main_v88, Cert.ReferenceIdeal.Read.val_main_v89, Cert.ReferenceIdeal.Read.val_main_v90, Cert.ReferenceIdeal.Read.val_main_v91, Cert.ReferenceIdeal.Read.val_main_v92]
  rw [edgeNorm_again, selfNorm_again]
  refine congrArg₂ addf (congrArg₂ addf ?_ ?_) ?_
  · refine congrArg₂ (Host.scatterAdd scatter_S50000x256_S800000x1_S800000x256_1_0_0_1 _) ?_ ?_
    · rfl
    · refine congrArg₂ mulf ?_ ?_
      · rfl
      · exact congrArg (Host.gather gather_S50000x256_S800000x1_S800000x256_1_0_n_n_0_1_1256 _) rfl
  · rfl
  · rfl

/-- The left operand of the third product: the change of float format is the identity. -/
theorem lhsW7 (c : Dev nD) : W7 m ρ c (Proc.devRef .tc main_v72) = W7 m ρ c (Proc.devRef .tc main_v71) := by
  show StableHlo.after hostOps2 (W6 m ρ c) (Proc.devRef .tc main_v72) = StableHlo.after hostOps2 (W6 m ρ c) (Proc.devRef .tc main_v71)
  generalize W6 m ρ c = V
  after_results_simp
  funext i
  exact ValueIdx.truncf_apply _ _ i

/-- The third weight, its float format changed (the identity). -/
theorem wgtW7 (c : Dev nD) : W7 m ρ c (Proc.devRef .tc main_v73) = x6 m c := by
  show StableHlo.after hostOps2 (W6 m ρ c) (Proc.devRef .tc main_v73) = _
  have h := arg6W6 m ρ c
  generalize W6 m ρ c = V at h ⊢
  after_results_simp
  rw [h]
  funext i
  exact ValueIdx.truncf_apply (x6 m c) _ i

/-- The bias row: the last bias reshaped from [256] to [1, 256]. -/
theorem biasW7 (c : Dev nD) : W7 m ρ c (Proc.devRef .tc main_v74) = shapeCast S1x256 (x7 m c) shapeCasts_S256_S1x256 := by
  show StableHlo.after hostOps2 (W6 m ρ c) (Proc.devRef .tc main_v74) = _
  have h := arg7W6 m ρ c
  generalize W6 m ρ c = V at h ⊢
  after_results_simp
  rw [h]
  rfl

/-! ## Exit of region 2: the result -/

/-- The third product plus the bias row is the reference's result. -/
theorem prod2_eq (a : (⟨S50000x512, .f32⟩ : BufTy).Contents (Elt Ideal)) (b : (⟨S2x800000, .i32⟩ : BufTy).Contents (Elt Ideal))
    (d : (⟨S512x256, .f32⟩ : BufTy).Contents (Elt Ideal)) (e : (⟨S256, .f32⟩ : BufTy).Contents (Elt Ideal))
    (f : (⟨S256x256, .f32⟩ : BufTy).Contents (Elt Ideal)) (g : (⟨S256, .f32⟩ : BufTy).Contents (Elt Ideal))
    (w : (⟨S256x256, .f32⟩ : BufTy).Contents (Elt Ideal)) (p : (⟨S256, .f32⟩ : BufTy).Contents (Elt Ideal)) :
    Region2.prodBias (Cert.ReferenceIdeal.Read.val_main_v92 a b d e f g) w (shapeCast S1x256 p shapeCasts_S256_S1x256) = Cert.ReferenceIdeal.Read.val_main_v96 a b d e f g w p := by
  funext i
  rw [Cert.ReferenceIdeal.Read.val_main_v96_apply, Cert.ReferenceIdeal.Read.val_main_v93_apply, Cert.ReferenceIdeal.Read.val_main_v95_apply, Cert.ReferenceIdeal.Read.val_main_v94_apply]
  unfold Region2.prodBias
  refine congrArg₂ (· + ·) rfl ?_
  refine shapeCast_apply p shapeCasts_S256_S1x256 _ _ ?_
  rw [Shape.rowMajor_val_one, Shape.rowMajor_val_two]
  show (i 1).val = 0 * 256 + (i 1).val
  omega

theorem outW8 (c : Dev nD) : W8 m ρ c (Proc.devRef .tc main_v75) = Cert.ReferenceIdeal.Read.val_main_v96 (x0 m c) (x1 m c) (x2 m c) (x3 m c) (x4 m c) (x5 m c) (x6 m c) (x7 m c) := by
  refine (W8_arr m ρ c 3).trans ?_
  rw [Region2.arr (V7 m ρ) c]
  show Region2.prodBias (W7 m ρ c (Proc.devRef .tc main_v72)) (W7 m ρ c (Proc.devRef .tc main_v73)) (W7 m ρ c (Proc.devRef .tc main_v74)) = _
  rw [lhsW7, conv2W7, wgtW7, biasW7]
  exact prod2_eq _ _ _ _ _ _ _ _

end Cert.KernelIdeal.Chain

end
-- ==== Proof.lean ====
/-
  A two-layer graph convolution with a linear head, its three dense products run as row-blocked kernels, against its
  plain reference.

  Both programs compute, for node features x, an edge list (src, dst), weights W1 W2 Wp and biases b1 b2 bp,
      h1 = relu (conv (x · W1) + b1),   h2 = conv (h1 · W2) + b2,   out = h2 · Wp + bp,
  where conv h = Σ over edges into a node of rsqrt(deg src) · rsqrt(deg dst) · h[src], plus rsqrt(deg)² · h, and deg is
  the in-degree plus one. The kernel program computes the normalisation once and runs each product as 25 row blocks of
  2000 rows after changing the operands' float format; the reference computes the normalisation in each layer and uses
  one whole product. Over the extended reals a change of float format is the identity and a product into a zero
  accumulator is the plain sum over the contracted axis, block by block or whole; the gathers, scatter-adds and
  pointwise operations around the products are the same operations in the same order on both sides, so they are
  carried as they stand and no law of arithmetic beyond that is used: the precondition is never opened.

  Each region's output array is read as a whole-array product (Region0, Region1, Region2); the kernel program's
  buffers are then followed from the launch to the result and named by the reference's own stages (Stage0, Stage1,
  Stage2); the launch is called once more with the result buffer in its post (KernelRun).
-/
import proofs.«174555_j47467978556197_1_alg».proof.Defs
import proofs.«174555_j47467978556197_1_alg».proof.Proof.Gen.Kernel
import proofs.«174555_j47467978556197_1_alg».proof.Proof.Gen.Kernel.Frame
import proofs.«174555_j47467978556197_1_alg».proof.Proof.Gen.KernelIdeal
import proofs.«174555_j47467978556197_1_alg».proof.Proof.Gen.KernelIdeal.Frame
import proofs.«174555_j47467978556197_1_alg».proof.Proof.Gen.ReferenceIdeal
import proofs.«174555_j47467978556197_1_alg».proof.Proof.Gen.ReferenceIdeal.Run
import proofs.«174555_j47467978556197_1_alg».proof.Proof.Gen.ReferenceIdeal.Read
import proofs.«174555_j47467978556197_1_alg».proof.Proof.Gen.Pre_finite_inputs
import proofs.«174555_j47467978556197_1_alg».proof.Proof.KernelRun
import proofs.«174555_j47467978556197_1_alg».proof.Proof.Stage2

noncomputable section

namespace Cert.Proof

open Idealize.ShloMosaic Idealize.ShloMosaic.TcCoe Idealize.SL.Sem

/-- The word-level kernel program runs and leaves its arguments as launched. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with the reference's last stage of the (agreeing) arguments in their result buffer. -/
theorem algebraic : Cert.algebraic_KernelIdeal_ReferenceIdeal := by
  intro m ρ m' ρ' _ hagree
  refine ⟨fun c => Cert.ReferenceIdeal.Read.val_main_v96 (F := Ideal)
      (Cert.KernelIdeal.Chain.x0 m c) (Cert.KernelIdeal.Chain.x1 m c) (Cert.KernelIdeal.Chain.x2 m c) (Cert.KernelIdeal.Chain.x3 m c)
      (Cert.KernelIdeal.Chain.x4 m c) (Cert.KernelIdeal.Chain.x5 m c) (Cert.KernelIdeal.Chain.x6 m c) (Cert.KernelIdeal.Chain.x7 m c), ?_, ?_⟩
  · exact (θ_run Cert.KernelIdeal.defs _ _).mono
      (fun r h c => ⟨(h c).1.trans (Cert.KernelIdeal.Chain.outW8 m ρ c), (h c).2⟩)
      (Cert.KernelIdeal.Gen.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v96_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
